-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x500000 : Shape := ⟨2, ![2, 500000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_arg8 : FVec F S1x256 .f32) (main_arg9 : FVec F S1 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 4294867296#32
  let main_v44 : IVec S2x500000 32 := broadcastInDim S2x500000 ![] bcast_S_S2x500000 main_c_16
  let main_v45 : IVec S2x500000 1 := cmpi .sge main_arg1 main_v44
  let main_c_17 : IVec S_ 32 := constantI S_ 32 100000#32
  let main_v46 : IVec S2x500000 32 := broadcastInDim S2x500000 ![] bcast_S_S2x500000 main_c_17
  let main_v47 : IVec S2x500000 1 := cmpi .slt main_arg1 main_v46
  let main_v48 : IVec S2x500000 1 := andi main_v45 main_v47
  let main_c_18 : IVec S_ 1 := constantI S_ 1 1#1
  let main_v49 : IVec S_ 1 := (fun x v => Host.reduce IntOp.andi x v reducesTo_S2x500000_S_d0_1 h_S_) main_v48 main_c_18
  let main_v50 : IVec S_ 1 := andi main_v43 main_v49
  main_v50

def fn_part1 {F : FTy → Type} [FloatOps F] (main_arg1 : IVec S2x500000 32) (main_arg5 : FVec F S256 .f32) (main_arg6 : FVec F S256x256 .f32) (main_arg7 : FVec F S256 .f32) (main_arg8 : FVec F S1x256 .f32) (main_arg9 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S100000x256 .f32) (main_arg1 : IVec S2x500000 32) (main_arg2 : FVec F S512x512 .f32) (main_arg3 : FVec F S512 .f32) (main_arg4 : FVec F S256x512 .f32) (main_arg5 : FVec F S256 .f32) (main_arg6 : FVec F S256x256 .f32) (main_arg7 : FVec F S256 .f32) (main_arg8 : FVec F S1x256 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg1 main_arg5 main_arg6 main_arg7 main_arg8 main_arg9 main_v13 main_v16
-- ==== Kernel.lean ====
abbrev S100000x256 : Shape := ⟨2, ![100000, 256]⟩
abbrev S2x500000 : Shape := ⟨2, ![2, 500000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x256 : Shape := ⟨2, ![500000, 256]⟩
abbrev S512x256 : Shape := ⟨2, ![512, 256]⟩
abbrev S256x1 : Shape := ⟨2, ![256, 1]⟩
abbrev S1x512 : Shape := ⟨2, ![1, 512]⟩
abbrev S2000x256 : Shape := ⟨2, ![2000, 256]⟩
abbrev S2000x1 : Shape := ⟨2, ![2000, 1]⟩
abbrev S2000x512 : Shape := ⟨2, ![2000, 512]⟩

abbrev nBuf : Space → Nat
  | .hbm => 76
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x500000, .i32⟩
  | .hbm, ⟨2, _⟩ => ⟨S512x512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S1, .i32⟩
  | .hbm, ⟨23, _⟩ => ⟨S_, .i32⟩
  | .hbm, ⟨24, _⟩ => ⟨S500000x1, .i32⟩
  | .hbm, ⟨25, _⟩ => ⟨S500000x1, .i1⟩
  | .hbm, ⟨26, _⟩ => ⟨S1x1, .i32⟩
  | .hbm, ⟨27, _⟩ => ⟨S500000x1, .i32⟩
  | .hbm, ⟨28, _⟩ => ⟨S500000x1, .i1⟩
  | .hbm, ⟨29, _⟩ => ⟨S500000x1, .i1⟩
  | .hbm, ⟨30, _⟩ => ⟨S_, .i1⟩
  | .hbm, ⟨31, _⟩ => ⟨S500000, .i1⟩
  | .hbm, ⟨32, _⟩ => ⟨S500000x256, .f32⟩
  | .hbm, ⟨33, _⟩ => ⟨S500000x256, .i1⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S1, .i32⟩
  | .hbm, ⟨46, _⟩ => ⟨S_, .i32⟩
  | .hbm, ⟨47, _⟩ => ⟨S500000x1, .i32⟩
  | .hbm, ⟨48, _⟩ => ⟨S500000x1, .i1⟩
  | .hbm, ⟨49, _⟩ => ⟨S1x1, .i32⟩
  | .hbm, ⟨50, _⟩ => ⟨S500000x1, .i32⟩
  | .hbm, ⟨51, _⟩ => ⟨S500000x1, .i1⟩
  | .hbm, ⟨52, _⟩ => ⟨S500000x1, .i1⟩
  | .hbm, ⟨53, _⟩ => ⟨S_, .i1⟩
  | .hbm, ⟨54, _⟩ => ⟨S500000, .i1⟩
  | .hbm, ⟨55, _⟩ => ⟨S500000x256, .f32⟩
  | .hbm, ⟨56, _⟩ => ⟨S500000x256, .i1⟩
  | .hbm, ⟨57, _⟩ => ⟨S_, .f32⟩
  | .hbm, ⟨58, _⟩ => ⟨S500000x256, .f32⟩
  | .hbm, ⟨59, _⟩ => ⟨S500000x256, .f32⟩
  | .hbm, ⟨60, _⟩ => ⟨S512x512, .f32⟩
  | .hbm, ⟨61, _⟩ => ⟨S256x512, .f32⟩
  | .hbm, ⟨62, _⟩ => ⟨S256x512, .bf16⟩
  | .hbm, ⟨63, _⟩ => ⟨S256x512, .f32⟩
  | .hbm, ⟨64, _⟩ => ⟨S256x512, .bf16⟩
  | .hbm, ⟨65, _⟩ => ⟨S512x256, .f32⟩
  | .hbm, ⟨66, _⟩ => ⟨S512x256, .bf16⟩
  | .hbm, ⟨67, _⟩ => ⟨S256x256, .f32⟩
  | .hbm, ⟨68, _⟩ => ⟨S256x256, .bf16⟩
  | .hbm, ⟨69, _⟩ => ⟨S256x1, .f32⟩
  | .hbm, ⟨70, _⟩ => ⟨S256x1, .bf16⟩
  | .hbm, ⟨71, _⟩ => ⟨S1x512, .f32⟩
  | .hbm, ⟨72, _⟩ => ⟨S1x256, .f32⟩
  | .hbm, ⟨73, _⟩ => ⟨S1x256, .f32⟩
  | .hbm, ⟨74, _⟩ => ⟨S1x1, .f32⟩
  | .hbm, ⟨75, _⟩ => ⟨S500000x1, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .bf16⟩
  | .local _ .vmem, ⟨5, _⟩ => ⟨S256x512, .bf16⟩
  | .local _ .vmem, ⟨6, _⟩ => ⟨S1x512, .f32⟩
  | .local _ .vmem, ⟨7, _⟩ => ⟨S512x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x1, .bf16⟩
  | .local _ .vmem, ⟨12, _⟩ => ⟨S1x1, .f32⟩
  | .local _ .vmem, ⟨13, _⟩ => ⟨S2000x1, .f32⟩
  | .local _ .vmem, ⟨14, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  transposes_S512x512_S512x512_1_0 : S512x512.Transposes [1, 0] S512x512
  slices_S512x512_S256x512_0_0 : S512x512.Slices ![0, 0] S256x512
  bitsLt_bf16_f32 : FTy.bits .bf16 < FTy.bits .f32
  slices_S512x512_S256x512_256_0 : S512x512.Slices ![256, 0] S256x512
  transposes_S256x512_S512x256_1_0 : S256x512.Transposes [1, 0] S512x256
  transposes_S256x256_S256x256_1_0 : S256x256.Transposes [1, 0] S256x256
  transposes_S1x256_S256x1_1_0 : S1x256.Transposes [1, 0] S256x1
  shapeCasts_S512_S1x512 : S512.ShapeCasts S1x512
  shapeCasts_S256_S1x256 : S256.ShapeCasts S1x256
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S100000x256_S500000x1_S500000x256_1_0_n_n_0_1_1256_wf : GatherDims.WF S100000x256 S500000x1 S500000x256 [1] [0] [] [0] [] 1 ![1, 256]
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S500000x256.size a
  hwx0_1 : ∀ i : grid0.Coords, EltTy.bits .f32 = 32 ∨ (Rect.block (s := S500000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .bf16 = 32 ∨ (Rect.block (s := S256x1) S256x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x1.size a ≤ S500000x1.size a
  hwx0_11 : ∀ i : grid0.Coords, EltTy.bits .f32 = 32 ∨ (Rect.block (s := S500000x1) S2000x1.size (cc0_transform_11 i) (hinb0_11 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v4) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S2000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x500000 : Shape := ⟨2, ![2, 500000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S1x512 : Shape := ⟨2, ![1, 512]⟩
abbrev S512x256 : Shape := ⟨2, ![512, 256]⟩
abbrev S256x1 : Shape := ⟨2, ![256, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x500000, .i32⟩
  | .hbm, ⟨2, _⟩ => ⟨S512x512, .f32⟩
  | .hbm, ⟨3, _⟩ => ⟨S512, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x256, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x256, .f32⟩
  | .hbm, ⟨32, _⟩ => ⟨S500000x512, .f32⟩
  | .hbm, ⟨33, _⟩ => ⟨S512x512, .f32⟩
  | .hbm, ⟨34, _⟩ => ⟨S500000x512, .f32⟩
  | .hbm, ⟨35, _⟩ => ⟨S1x512, .f32⟩
  | .hbm, ⟨36, _⟩ => ⟨S500000x512, .f32⟩
  | .hbm, ⟨37, _⟩ => ⟨S500000x512, .f32⟩
  | .hbm, ⟨38, _⟩ => ⟨S_, .f32⟩
  | .hbm, ⟨39, _⟩ => ⟨S500000x512, .f32⟩
  | .hbm, ⟨40, _⟩ => ⟨S500000x512, .f32⟩
  | .hbm, ⟨41, _⟩ => ⟨S512x256, .f32⟩
  | .hbm, ⟨42, _⟩ => ⟨S500000x256, .f32⟩
  | .hbm, ⟨43, _⟩ => ⟨S1x256, .f32⟩
  | .hbm, ⟨44, _⟩ => ⟨S500000x256, .f32⟩
  | .hbm, ⟨45, _⟩ => ⟨S500000x256, .f32⟩
  | .hbm, ⟨46, _⟩ => ⟨S_, .f32⟩
  | .hbm, ⟨47, _⟩ => ⟨S500000x256, .f32⟩
  | .hbm, ⟨48, _⟩ => ⟨S500000x256, .f32⟩
  | .hbm, ⟨49, _⟩ => ⟨S256x256, .f32⟩
  | .hbm, ⟨50, _⟩ => ⟨S500000x256, .f32⟩
  | .hbm, ⟨51, _⟩ => ⟨S1x256, .f32⟩
  | .hbm, ⟨52, _⟩ => ⟨S500000x256, .f32⟩
  | .hbm, ⟨53, _⟩ => ⟨S500000x256, .f32⟩
  | .hbm, ⟨54, _⟩ => ⟨S_, .f32⟩
  | .hbm, ⟨55, _⟩ => ⟨S500000x256, .f32⟩
  | .hbm, ⟨56, _⟩ => ⟨S500000x256, .f32⟩
  | .hbm, ⟨57, _⟩ => ⟨S256x1, .f32⟩
  | .hbm, ⟨58, _⟩ => ⟨S500000x1, .f32⟩
  | .hbm, ⟨59, _⟩ => ⟨S1x1, .f32⟩
  | .hbm, ⟨60, _⟩ => ⟨S500000x1, .f32⟩
  | .hbm, ⟨61, _⟩ => ⟨S500000x1, .f32⟩
  | .hbm, ⟨62, _⟩ => ⟨S500000x1, .f32⟩
  | .hbm, ⟨63, _⟩ => ⟨S500000x1, .f32⟩
  | .hbm, ⟨64, _⟩ => ⟨S_, .f32⟩
  | .hbm, ⟨65, _⟩ => ⟨S500000x1, .f32⟩
  | .hbm, ⟨66, _⟩ => ⟨S500000x1, .f32⟩
  | .hbm, ⟨67, _⟩ => ⟨S_, .f32⟩
  | .hbm, ⟨68, _⟩ => ⟨S500000x1, .f32⟩
  | .hbm, ⟨69, _⟩ => ⟨S500000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  transposes_S512x512_S512x512_1_0 : S512x512.Transposes [1, 0] S512x512
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  transposes_S256x512_S512x256_1_0 : S256x512.Transposes [1, 0] S512x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  gather_S100000x256_S500000x1_S500000x256_1_0_n_n_0_1_1256_wf : GatherDims.WF S100000x256 S500000x1 S500000x256 [1] [0] [] [0] [] 1 ![1, 256]
  dot_S500000x512_S512x512_S500000x512_1_0_0_1_n_n_wf : DotDims.WF S500000x512 S512x512 S500000x512 [1] [0] [0] [1] [] []
  dot_S500000x512_S512x256_S500000x256_1_0_0_1_n_n_wf : DotDims.WF S500000x512 S512x256 S500000x256 [1] [0] [0] [1] [] []
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x512_S512x512_S500000x512_1_0_0_1_n_n : DotDims S500000x512 S512x512 S500000x512 where
  lhsContracting := [1]
  rhsContracting := [0]
  lhsNonContracting := [0]
  rhsNonContracting := [1]
  lhsBatch := []
  rhsBatch := []
  wf := dot_S500000x512_S512x512_S500000x512_1_0_0_1_n_n_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.Spec.lean ====
/-
  THE EDGE SCORER AS ONE FUNCTION OF ITS INPUTS, over the extended reals.

  For an edge with endpoint embeddings `xr, xc : ℝ̄^256` the score is
    σ( w₄ · relu(W₃ · relu(W₂ · relu(W₁ · [xr; xc] + b₁) + b₂) + b₃) + b₄ ),
  σ the logistic function. The first layer is written with the product against the stacked vector `[xr; xc]`
  already split in two: `W₁ · [xr; xc] = A · xr + B · xc` where `A` holds the first 256 columns of `W₁` and `B` the
  last 256. Every weight matrix is taken in (input, output) layout, `W k j` the weight from input `k` to output `j`.
  `sum_split` is the one law that joins the two ways of writing the first layer: a sum over `256 + 256` indices is
  the sum over the first 256 plus the sum over the last 256; it holds in any commutative monoid, so it needs no
  finiteness of the summands.
-/
import Idealize.ShloMosaic.PureOps.Ideal
import Idealize.ShloMosaic.Lib.ValueIdx
import Mathlib.Algebra.BigOperators.Fin

noncomputable section

open scoped BigOperators

namespace Cert.EdgeMlp

open Idealize.ShloMosaic Idealize.ShloMosaic.ValueIdx

/-- A dense layer followed by a rectifier: output `j` is `max (∑ₖ x k · W k j + b j) 0`. -/
def layer {K N : ℕ} (x : Fin K → EReal) (W : Fin K → Fin N → EReal) (b : Fin N → EReal) (j : Fin N) : EReal :=
  max ((∑ k, x k * W k j) + b j) 0

/-- The first layer on the two endpoint embeddings, each against its half of the weights. -/
def layer1 (xr xc : Fin 256 → EReal) (A B : Fin 256 → Fin 512 → EReal) (b : Fin 512 → EReal) (j : Fin 512) : EReal :=
  max ((∑ k, xr k * A k j) + (∑ k, xc k * B k j) + b j) 0

/-- One edge's score. -/
def mlp (xr xc : Fin 256 → EReal) (A B : Fin 256 → Fin 512 → EReal) (b1 : Fin 512 → EReal)
    (C : Fin 512 → Fin 256 → EReal) (b2 : Fin 256 → EReal) (D : Fin 256 → Fin 256 → EReal) (b3 : Fin 256 → EReal)
    (w4 : Fin 256 → EReal) (b4 : EReal) : EReal :=
  Ideal.logistic ((∑ k, layer (layer (layer1 xr xc A B b1) C b2) D b3 k * w4 k) + b4)

/-- A sum over `256 + 256` indices splits into the sums over its two halves. -/
theorem sum_split (f : Fin 512 → EReal) :
    ∑ k : Fin 512, f k = (∑ k : Fin 256, f (Fin.castAdd 256 k)) + ∑ k : Fin 256, f (Fin.natAdd 256 k) :=
  Fin.sum_univ_add (M := EReal) (a := 256) (b := 256) f

/-- THE SCORES OF ALL EDGES from the gathered endpoint embeddings `GR, GC` (row `e` of each is the embedding of
    edge `e`'s source, resp. target) and the layers' parameters as the caller passes them: `W₁ : [512, 512]`,
    `W₂ : [256, 512]`, `W₃ : [256, 256]`, `W₄ : [1, 256]` in (output, input) layout, the biases as vectors. -/
def scores (GR GC : (⟨2, ![500000, 256]⟩ : Shape).Idx → EReal) (W1 : (⟨2, ![512, 512]⟩ : Shape).Idx → EReal)
    (b1 : (⟨1, ![512]⟩ : Shape).Idx → EReal) (W2 : (⟨2, ![256, 512]⟩ : Shape).Idx → EReal)
    (b2 : (⟨1, ![256]⟩ : Shape).Idx → EReal) (W3 : (⟨2, ![256, 256]⟩ : Shape).Idx → EReal)
    (b3 : (⟨1, ![256]⟩ : Shape).Idx → EReal) (W4 : (⟨2, ![1, 256]⟩ : Shape).Idx → EReal)
    (b4 : (⟨1, ![1]⟩ : Shape).Idx → EReal) : (⟨2, ![500000, 1]⟩ : Shape).Idx → EReal := fun i =>
  mlp (fun k => GR (ix2 (i 0) k)) (fun k => GC (ix2 (i 0) k))
    (fun k j => W1 (ix2 j (Fin.castAdd 256 k : Fin 512))) (fun k j => W1 (ix2 j (Fin.natAdd 256 k : Fin 512)))
    (fun j => b1 (ix1 j)) (fun k j => W2 (ix2 j k)) (fun j => b2 (ix1 j)) (fun k j => W3 (ix2 j k)) (fun j => b3 (ix1 j))
    (fun k => W4 (ix2 (0 : Fin 1) k)) (b4 (ix1 (0 : Fin 1)))

/-- THE SCORES OF ALL EDGES from the operands as the kernel is handed them: the gathered embeddings `a0, a1`, the
    weights in (input, output) layout — `a2, a3 : [256, 512]` the two halves of the first layer's, `a5 : [512, 256]`,
    `a7 : [256, 256]`, `a9 : [256, 1]` — and the biases as rows `a4 : [1, 512]`, `a6, a8 : [1, 256]`, `a10 : [1, 1]`. -/
def scoresT (a0 a1 : (⟨2, ![500000, 256]⟩ : Shape).Idx → EReal) (a2 a3 : (⟨2, ![256, 512]⟩ : Shape).Idx → EReal)
    (a4 : (⟨2, ![1, 512]⟩ : Shape).Idx → EReal) (a5 : (⟨2, ![512, 256]⟩ : Shape).Idx → EReal)
    (a6 : (⟨2, ![1, 256]⟩ : Shape).Idx → EReal) (a7 : (⟨2, ![256, 256]⟩ : Shape).Idx → EReal)
    (a8 : (⟨2, ![1, 256]⟩ : Shape).Idx → EReal) (a9 : (⟨2, ![256, 1]⟩ : Shape).Idx → EReal)
    (a10 : (⟨2, ![1, 1]⟩ : Shape).Idx → EReal) : (⟨2, ![500000, 1]⟩ : Shape).Idx → EReal := fun i =>
  mlp (fun k => a0 (ix2 (i 0) k)) (fun k => a1 (ix2 (i 0) k)) (fun k j => a2 (ix2 k j)) (fun k j => a3 (ix2 k j))
    (fun j => a4 (ix2 (0 : Fin 1) j)) (fun k j => a5 (ix2 k j)) (fun j => a6 (ix2 (0 : Fin 1) j))
    (fun k j => a7 (ix2 k j)) (fun j => a8 (ix2 (0 : Fin 1) j)) (fun k => a9 (ix2 k (0 : Fin 1)))
    (a10 (ix2 (0 : Fin 1) (0 : Fin 1)))

/-- `scoresT` at edge `e`. -/
theorem scoresT_apply (a0 a1 : (⟨2, ![500000, 256]⟩ : Shape).Idx → EReal) (a2 a3 : (⟨2, ![256, 512]⟩ : Shape).Idx → EReal)
    (a4 : (⟨2, ![1, 512]⟩ : Shape).Idx → EReal) (a5 : (⟨2, ![512, 256]⟩ : Shape).Idx → EReal)
    (a6 : (⟨2, ![1, 256]⟩ : Shape).Idx → EReal) (a7 : (⟨2, ![256, 256]⟩ : Shape).Idx → EReal)
    (a8 : (⟨2, ![1, 256]⟩ : Shape).Idx → EReal) (a9 : (⟨2, ![256, 1]⟩ : Shape).Idx → EReal)
    (a10 : (⟨2, ![1, 1]⟩ : Shape).Idx → EReal) (e : Fin 500000) (u : Fin 1) :
    scoresT a0 a1 a2 a3 a4 a5 a6 a7 a8 a9 a10 (ix2 e u)
      = mlp (fun k => a0 (ix2 e k)) (fun k => a1 (ix2 e k)) (fun k j => a2 (ix2 k j)) (fun k j => a3 (ix2 k j))
          (fun j => a4 (ix2 (0 : Fin 1) j)) (fun k j => a5 (ix2 k j)) (fun j => a6 (ix2 (0 : Fin 1) j))
          (fun k j => a7 (ix2 k j)) (fun j => a8 (ix2 (0 : Fin 1) j)) (fun k => a9 (ix2 k (0 : Fin 1)))
          (a10 (ix2 (0 : Fin 1) (0 : Fin 1))) := rfl

/-- `scores` at edge `e`. -/
theorem scores_apply (GR GC : (⟨2, ![500000, 256]⟩ : Shape).Idx → EReal) (W1 : (⟨2, ![512, 512]⟩ : Shape).Idx → EReal)
    (b1 : (⟨1, ![512]⟩ : Shape).Idx → EReal) (W2 : (⟨2, ![256, 512]⟩ : Shape).Idx → EReal)
    (b2 : (⟨1, ![256]⟩ : Shape).Idx → EReal) (W3 : (⟨2, ![256, 256]⟩ : Shape).Idx → EReal)
    (b3 : (⟨1, ![256]⟩ : Shape).Idx → EReal) (W4 : (⟨2, ![1, 256]⟩ : Shape).Idx → EReal)
    (b4 : (⟨1, ![1]⟩ : Shape).Idx → EReal) (e : Fin 500000) (u : Fin 1) :
    scores GR GC W1 b1 W2 b2 W3 b3 W4 b4 (ix2 e u)
      = mlp (fun k => GR (ix2 e k)) (fun k => GC (ix2 e k))
          (fun k j => W1 (ix2 j (Fin.castAdd 256 k : Fin 512))) (fun k j => W1 (ix2 j (Fin.natAdd 256 k : Fin 512)))
          (fun j => b1 (ix1 j)) (fun k j => W2 (ix2 j k)) (fun j => b2 (ix1 j)) (fun k j => W3 (ix2 j k)) (fun j => b3 (ix1 j))
          (fun k => W4 (ix2 (0 : Fin 1) k)) (b4 (ix1 (0 : Fin 1))) := rfl

end Cert.EdgeMlp

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.KernelBody.lean ====
/-
  THE KERNEL BODY'S VALUE AT AN INDEX.

  One grid point holds 2000 edges. From the point's two blocks of gathered embeddings `x0, x1 : [2000, 256]`, the
  weights in (input, output) layout `x2, x3 : [256, 512]`, `x5 : [512, 256]`, `x7 : [256, 256]`, `x9 : [256, 1]` and
  the biases as rows `x4 : [1, 512]`, `x6, x8 : [1, 256]`, `x10 : [1, 1]`, the value the body stores at row `p` is
  the score `EdgeMlp.mlp` of row `p` of `x0` and of `x1`: over the extended reals a change of float format is the
  identity, a matrix product into a zero accumulator is the sum over the contracted index, a rectifier is the
  maximum with zero, and the logistic unit is the logistic function.
-/
import proofs.«410534_j22703197127228_1_alg».proof.Proof.Gen.KernelIdeal.Skeleton
import proofs.«410534_j22703197127228_1_alg».proof.Proof.Spec
import proofs.«410534_j22703197127228_1_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeMlp

/-- `[2000, 256] × [256, 512]` into zero, at `(p, j)`. -/
theorem mm_256_512 (L : FVec Ideal S2000x256 .bf16) (R : FVec Ideal S256x512 .bf16) (p : Fin 2000) (j : Fin 512) :
    matmul dot_S2000x256_S256x512_S2000x512_1_0_0_1_n_n none L R (constant S2000x512 .f32 0x00000000#32) (ix2 p j)
      = ∑ k : Fin 256, L (ix2 p k) * R (ix2 k j) :=
  PlainDot.matmul_zero_apply 2000 256 512 none L R p j

/-- `[2000, 512] × [512, 256]` into zero, at `(p, j)`. -/
theorem mm_512_256 (L : FVec Ideal S2000x512 .bf16) (R : FVec Ideal S512x256 .bf16) (p : Fin 2000) (j : Fin 256) :
    matmul dot_S2000x512_S512x256_S2000x256_1_0_0_1_n_n none L R (constant S2000x256 .f32 0x00000000#32) (ix2 p j)
      = ∑ k : Fin 512, L (ix2 p k) * R (ix2 k j) :=
  PlainDot.matmul_zero_apply 2000 512 256 none L R p j

/-- `[2000, 256] × [256, 256]` into zero, at `(p, j)`. -/
theorem mm_256_256 (L : FVec Ideal S2000x256 .bf16) (R : FVec Ideal S256x256 .bf16) (p : Fin 2000) (j : Fin 256) :
    matmul dot_S2000x256_S256x256_S2000x256_1_0_0_1_n_n none L R (constant S2000x256 .f32 0x00000000#32) (ix2 p j)
      = ∑ k : Fin 256, L (ix2 p k) * R (ix2 k j) :=
  PlainDot.matmul_zero_apply 2000 256 256 none L R p j

/-- `[2000, 256] × [256, 1]` into zero, at `(p, 0)`. -/
theorem mm_256_1 (L : FVec Ideal S2000x256 .bf16) (R : FVec Ideal S256x1 .bf16) (p : Fin 2000) (j : Fin 1) :
    matmul dot_S2000x256_S256x1_S2000x1_1_0_0_1_n_n none L R (constant S2000x1 .f32 0x00000000#32) (ix2 p j)
      = ∑ k : Fin 256, L (ix2 p k) * R (ix2 k j) :=
  PlainDot.matmul_zero_apply 2000 256 1 none L R p j

/-- The logistic unit acts entry by entry. -/
theorem logistic_apply {s : Shape} {φ : FTy} (x : FVec Ideal s φ) (i : s.Idx) : logistic x i = Ideal.logistic (x i) := rfl

/-- The zero word is the number zero. -/
theorem scalar_zero : (Scalar.ofBits (F := Ideal) .f32 0x00000000#32 : Ideal .f32) = 0 := Ideal.ofBits_zero_f32

/-- THE STORED VALUE AT ROW `p`: the score of row `p` of the two embedding blocks. -/
theorem pay_apply (x0 x1 : Vec Ideal S2000x256 .f32) (x2 x3 : Vec Ideal S256x512 .bf16) (x4 : Vec Ideal S1x512 .f32)
    (x5 : Vec Ideal S512x256 .bf16) (x6 : Vec Ideal S1x256 .f32) (x7 : Vec Ideal S256x256 .bf16) (x8 : Vec Ideal S1x256 .f32)
    (x9 : Vec Ideal S256x1 .bf16) (x10 : Vec Ideal S1x1 .f32) (p : Fin 2000) (u : Fin 1) :
    k0_pay1 (k0_pay2 x0 x1 x2 x3 x4 x5 x6 x7) (k0_pay3 x8) x9 x10 (ix2 p u)
      = mlp (fun k => x0 (ix2 p k)) (fun k => x1 (ix2 p k)) (fun k j => x2 (ix2 k j)) (fun k j => x3 (ix2 k j))
          (fun j => x4 (ix2 (0 : Fin 1) j)) (fun k j => x5 (ix2 k j)) (fun j => x6 (ix2 (0 : Fin 1) j))
          (fun k j => x7 (ix2 k j)) (fun j => x8 (ix2 (0 : Fin 1) j)) (fun k => x9 (ix2 k (0 : Fin 1)))
          (x10 (ix2 (0 : Fin 1) (0 : Fin 1))) := by
  obtain rfl : u = 0 := Subsingleton.elim _ _
  unfold k0_pay1 k0_pay2 k0_pay3 mlp layer layer1
  simp only [logistic_apply, addf_apply, maximumf_apply, truncf_apply, broadcast_apply, shapeCast_self,
    mm_256_512, mm_512_256, mm_256_256, mm_256_1, broadcastTo_1b_ab_apply, scalar_zero]

/-- The same at any index `y` of the `[2000, 1]` block: its row is `y 0`. -/
theorem pay_apply_idx (x0 x1 : Vec Ideal S2000x256 .f32) (x2 x3 : Vec Ideal S256x512 .bf16) (x4 : Vec Ideal S1x512 .f32)
    (x5 : Vec Ideal S512x256 .bf16) (x6 : Vec Ideal S1x256 .f32) (x7 : Vec Ideal S256x256 .bf16) (x8 : Vec Ideal S1x256 .f32)
    (x9 : Vec Ideal S256x1 .bf16) (x10 : Vec Ideal S1x1 .f32) (y : S2000x1.Idx) :
    k0_pay1 (k0_pay2 x0 x1 x2 x3 x4 x5 x6 x7) (k0_pay3 x8) x9 x10 y
      = mlp (fun k => x0 (ix2 (y 0) k)) (fun k => x1 (ix2 (y 0) k)) (fun k j => x2 (ix2 k j)) (fun k j => x3 (ix2 k j))
          (fun j => x4 (ix2 (0 : Fin 1) j)) (fun k j => x5 (ix2 k j)) (fun j => x6 (ix2 (0 : Fin 1) j))
          (fun k j => x7 (ix2 k j)) (fun j => x8 (ix2 (0 : Fin 1) j)) (fun k => x9 (ix2 k (0 : Fin 1)))
          (x10 (ix2 (0 : Fin 1) (0 : Fin 1))) := by
  obtain ⟨p, u, rfl⟩ : ∃ (p : Fin 2000) (u : Fin 1), y = ix2 p u := ⟨y 0, y 1, eq_ix2 y⟩
  exact pay_apply x0 x1 x2 x3 x4 x5 x6 x7 x8 x9 x10 p u

end Cert.KernelIdeal.Body

end
-- ==== Proof.KernelValue.lean ====
/-
  FROM THE KERNEL'S BLOCKS TO ITS RESULT ARRAY.

  The grid has 250 points; point `t` reads rows `2000 t … 2000 t + 1999` of the two gathered embedding arrays and
  the whole of every weight and bias array, and writes rows `2000 t … 2000 t + 1999` of the `[500000, 1]` result.
  The value it stores at a row is that row's score (the body's value at an index), so what it writes back is its
  block of ONE whole-array function, `EdgeMlp.scoresT` of the arrays the region finds; the 250 blocks cover the
  result (row `r` lies in block `r / 2000`), hence the result array IS that function.
-/
import proofs.«410534_j22703197127228_1_alg».proof.Proof.Gen.KernelIdeal.Value
import proofs.«410534_j22703197127228_1_alg».proof.Proof.KernelBody

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The eleven operand arrays as the region finds them, at their literal types. -/
abbrev op0 (c : Dev nD) : FVec Ideal S500000x256 .f32 := V m c main_v4
abbrev op1 (c : Dev nD) : FVec Ideal S500000x256 .f32 := V m c main_v5
abbrev op2 (c : Dev nD) : FVec Ideal S256x512 .bf16 := V m c main_v8
abbrev op3 (c : Dev nD) : FVec Ideal S256x512 .bf16 := V m c main_v10
abbrev op4 (c : Dev nD) : FVec Ideal S1x512 .f32 := V m c main_v17
abbrev op5 (c : Dev nD) : FVec Ideal S512x256 .bf16 := V m c main_v12
abbrev op6 (c : Dev nD) : FVec Ideal S1x256 .f32 := V m c main_v18
abbrev op7 (c : Dev nD) : FVec Ideal S256x256 .bf16 := V m c main_v14
abbrev op8 (c : Dev nD) : FVec Ideal S1x256 .f32 := V m c main_v19
abbrev op9 (c : Dev nD) : FVec Ideal S256x1 .bf16 := V m c main_v16
abbrev op10 (c : Dev nD) : FVec Ideal S1x1 .f32 := V m c main_v20

/-- The result as one function of the operand arrays. -/
abbrev whole (c : Dev nD) : FVec Ideal S500000x1 .f32 :=
  scoresT (op0 m c) (op1 m c) (op2 m c) (op3 m c) (op4 m c) (op5 m c) (op6 m c) (op7 m c) (op8 m c) (op9 m c) (op10 m c)

/-- The printed index maps, decided over the grid: the two embedding windows and the result window sit at block row
    `t`, block column 0; every weight and bias window sits at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

set_option maxRecDepth 100000 in
/-- WHAT POINT `t` WRITES BACK is block `t` of the whole-array function. -/
theorem flushed_eq (c : Dev nD) (t : Fin cfg0.N) :
    (dats m 0 c).flushed 11 t = ((cfg0.win 11).blk t).view.read (Elt Ideal) (whole m c) := by
  rw [Value.flushed11]
  unfold out0_11
  rw [View.canon_unit_zero hz]
  simp only [View.ld_unit_zero (S := S2000x256) hz, View.ld_unit_zero (S := S256x512) hz, View.ld_unit_zero (S := S1x512) hz,
    View.ld_unit_zero (S := S512x256) hz, View.ld_unit_zero (S := S1x256) hz, View.ld_unit_zero (S := S256x256) hz,
    View.ld_unit_zero (S := S256x1) hz, View.ld_unit_zero (S := S1x1) hz]
  obtain ⟨e0, e1, e2, e3, e4, e5, e6, e7, e8, e9, e10, e11, e12, e13, e14, e15, e16, e17, e18, e19, e20, e21, e22, e23⟩ := idx_facts t
  funext j
  have hread : View.read (Elt Ideal) ((View.whole main_v21).slice ((win0 11).rect t)) (whole m c) j
      = whole m c (((View.whole main_v21).slice ((win0 11).rect t)).emb j) := by
    rw [View.read_apply]
    exact cast_eq _ _
  refine Eq.trans ?_ hread.symm
  show k0_pay1 (k0_pay2 (iblk m c 0 t) (iblk m c 1 t) (iblk m c 2 t) (iblk m c 3 t) (iblk m c 4 t) (iblk m c 5 t) (iblk m c 6 t) (iblk m c 7 t))
      (k0_pay3 (iblk m c 8 t)) (iblk m c 9 t) (iblk m c 10 t) j = _
  refine (Body.pay_apply_idx (iblk m c 0 t) (iblk m c 1 t) (iblk m c 2 t) (iblk m c 3 t) (iblk m c 4 t) (iblk m c 5 t) (iblk m c 6 t)
    (iblk m c 7 t) (iblk m c 8 t) (iblk m c 9 t) (iblk m c 10 t) j).trans ?_
  have h0 : ∀ k : Fin 256, iblk m c 0 t (ix2 (j 0) k) = op0 m c (ix2 ((((View.whole main_v21).slice ((win0 11).rect t)).emb j) 0) k) := fun k => by
    unfold iblk
    rw [View.read_apply]
    refine (cast_eq _ _).trans (congrArg (op0 m c) (funext fun a => Fin.ext ?_))
    match a with
    | ⟨0, _⟩ => show win0_0.index t (0 : Fin 2) * 2000 + 1 * (j 0).val = win0_11.index t (0 : Fin 2) * 2000 + 1 * (j 0).val; omega
    | ⟨1, _⟩ => show win0_0.index t (1 : Fin 2) * 256 + 1 * k.val = k.val; omega
  have h1 : ∀ k : Fin 256, iblk m c 1 t (ix2 (j 0) k) = op1 m c (ix2 ((((View.whole main_v21).slice ((win0 11).rect t)).emb j) 0) k) := fun k => by
    unfold iblk
    rw [View.read_apply]
    refine (cast_eq _ _).trans (congrArg (op1 m c) (funext fun a => Fin.ext ?_))
    match a with
    | ⟨0, _⟩ => show win0_1.index t (0 : Fin 2) * 2000 + 1 * (j 0).val = win0_11.index t (0 : Fin 2) * 2000 + 1 * (j 0).val; omega
    | ⟨1, _⟩ => show win0_1.index t (1 : Fin 2) * 256 + 1 * k.val = k.val; omega
  have h2 : ∀ (k : Fin 256) (q : Fin 512), iblk m c 2 t (ix2 k q) = op2 m c (ix2 k q) := fun k q => by
    unfold iblk
    rw [View.read_apply]
    refine (cast_eq _ _).trans (congrArg (op2 m c) (funext fun a => Fin.ext ?_))
    match a with
    | ⟨0, _⟩ => show win0_2.index t (0 : Fin 2) * 256 + 1 * k.val = k.val; omega
    | ⟨1, _⟩ => show win0_2.index t (1 : Fin 2) * 512 + 1 * q.val = q.val; omega
  have h3 : ∀ (k : Fin 256) (q : Fin 512), iblk m c 3 t (ix2 k q) = op3 m c (ix2 k q) := fun k q => by
    unfold iblk
    rw [View.read_apply]
    refine (cast_eq _ _).trans (congrArg (op3 m c) (funext fun a => Fin.ext ?_))
    match a with
    | ⟨0, _⟩ => show win0_3.index t (0 : Fin 2) * 256 + 1 * k.val = k.val; omega
    | ⟨1, _⟩ => show win0_3.index t (1 : Fin 2) * 512 + 1 * q.val = q.val; omega
  have h4 : ∀ (k : Fin 1) (q : Fin 512), iblk m c 4 t (ix2 k q) = op4 m c (ix2 k q) := fun k q => by
    unfold iblk
    rw [View.read_apply]
    refine (cast_eq _ _).trans (congrArg (op4 m c) (funext fun a => Fin.ext ?_))
    match a with
    | ⟨0, _⟩ => show win0_4.index t (0 : Fin 2) * 1 + 1 * k.val = k.val; omega
    | ⟨1, _⟩ => show win0_4.index t (1 : Fin 2) * 512 + 1 * q.val = q.val; omega
  have h5 : ∀ (k : Fin 512) (q : Fin 256), iblk m c 5 t (ix2 k q) = op5 m c (ix2 k q) := fun k q => by
    unfold iblk
    rw [View.read_apply]
    refine (cast_eq _ _).trans (congrArg (op5 m c) (funext fun a => Fin.ext ?_))
    match a with
    | ⟨0, _⟩ => show win0_5.index t (0 : Fin 2) * 512 + 1 * k.val = k.val; omega
    | ⟨1, _⟩ => show win0_5.index t (1 : Fin 2) * 256 + 1 * q.val = q.val; omega
  have h6 : ∀ (k : Fin 1) (q : Fin 256), iblk m c 6 t (ix2 k q) = op6 m c (ix2 k q) := fun k q => by
    unfold iblk
    rw [View.read_apply]
    refine (cast_eq _ _).trans (congrArg (op6 m c) (funext fun a => Fin.ext ?_))
    match a with
    | ⟨0, _⟩ => show win0_6.index t (0 : Fin 2) * 1 + 1 * k.val = k.val; omega
    | ⟨1, _⟩ => show win0_6.index t (1 : Fin 2) * 256 + 1 * q.val = q.val; omega
  have h7 : ∀ (k : Fin 256) (q : Fin 256), iblk m c 7 t (ix2 k q) = op7 m c (ix2 k q) := fun k q => by
    unfold iblk
    rw [View.read_apply]
    refine (cast_eq _ _).trans (congrArg (op7 m c) (funext fun a => Fin.ext ?_))
    match a with
    | ⟨0, _⟩ => show win0_7.index t (0 : Fin 2) * 256 + 1 * k.val = k.val; omega
    | ⟨1, _⟩ => show win0_7.index t (1 : Fin 2) * 256 + 1 * q.val = q.val; omega
  have h8 : ∀ (k : Fin 1) (q : Fin 256), iblk m c 8 t (ix2 k q) = op8 m c (ix2 k q) := fun k q => by
    unfold iblk
    rw [View.read_apply]
    refine (cast_eq _ _).trans (congrArg (op8 m c) (funext fun a => Fin.ext ?_))
    match a with
    | ⟨0, _⟩ => show win0_8.index t (0 : Fin 2) * 1 + 1 * k.val = k.val; omega
    | ⟨1, _⟩ => show win0_8.index t (1 : Fin 2) * 256 + 1 * q.val = q.val; omega
  have h9 : ∀ (k : Fin 256) (q : Fin 1), iblk m c 9 t (ix2 k q) = op9 m c (ix2 k q) := fun k q => by
    unfold iblk
    rw [View.read_apply]
    refine (cast_eq _ _).trans (congrArg (op9 m c) (funext fun a => Fin.ext ?_))
    match a with
    | ⟨0, _⟩ => show win0_9.index t (0 : Fin 2) * 256 + 1 * k.val = k.val; omega
    | ⟨1, _⟩ => show win0_9.index t (1 : Fin 2) * 1 + 1 * q.val = q.val; omega
  have h10 : ∀ (k : Fin 1) (q : Fin 1), iblk m c 10 t (ix2 k q) = op10 m c (ix2 k q) := fun k q => by
    unfold iblk
    rw [View.read_apply]
    refine (cast_eq _ _).trans (congrArg (op10 m c) (funext fun a => Fin.ext ?_))
    match a with
    | ⟨0, _⟩ => show win0_10.index t (0 : Fin 2) * 1 + 1 * k.val = k.val; omega
    | ⟨1, _⟩ => show win0_10.index t (1 : Fin 2) * 1 + 1 * q.val = q.val; omega
  show _ = scoresT (op0 m c) (op1 m c) (op2 m c) (op3 m c) (op4 m c) (op5 m c) (op6 m c) (op7 m c) (op8 m c) (op9 m c) (op10 m c) _
  unfold scoresT
  simp only [h0, h1, h2, h3, h4, h5, h6, h7, h8, h9, h10]

/-- An index of the result is in point `t`'s block iff each coordinate is in the block's range on its axis. -/
theorem mem_blk (t : Fin cfg0.N) (i : S500000x1.Idx) :
    i ∈ ((cfg0.win 11).blk t).view.set ↔ ∀ a : Fin 2, win0_11.index t a * S2000x1.size a ≤ (i a).val ∧ (i a).val < win0_11.index t a * S2000x1.size a + S2000x1.size a := by
  show i ∈ ((View.whole main_v21).slice (win0_11.rect t)).set ↔ _
  rw [View.set_slice_whole, Rect.mem_set_unit]
  exact Iff.rfl

/-- Row `r` of the result lies in the block of point `r / 2000`. -/
theorem cover (i : S500000x1.Idx) : ∃ t : Fin cfg0.N, (cfg0.win 11).flush t = true ∧ i ∈ ((cfg0.win 11).blk t).view.set := by
  have hi0 : (i 0).val < 500000 := (i 0).isLt
  have hi1 : (i 1).val < 1 := (i 1).isLt
  let t : Fin cfg0.N := ⟨(i 0).val / 2000, by show (i 0).val / 2000 < grid0.N; rw [N_0]; omega⟩
  have ht : t.val = (i 0).val / 2000 := rfl
  obtain ⟨_, _, _, _, _, _, _, _, _, _, _, _, _, _, _, _, _, _, _, _, _, _, e22, e23⟩ := idx_facts t
  refine ⟨t, flush0_11 t, ?_⟩
  rw [mem_blk]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 1 ≤ (i 1).val ∧ (i 1).val < win0_11.index t (1 : Fin 2) * 1 + 1; omega

/-- THE RESULT ARRAY after the run is the whole-array function of the operand arrays. -/
theorem final (c : Dev nD) : (dats m 0 c).arrAt 11 cfg0.N = whole m c :=
  (dats m 0 c).arrAt_eq_of_cover 11 (whole m c) (fun t _ => flushed_eq m c t) cover

/-- The run, re-posted: the result at the whole-array function, the arguments unchanged. -/
theorem run : θ_run defs (onTc (τ := τ) (main (F := Ideal))) ⟨m, fun _ => 0, ρ⟩ fun r => ∀ c : Dev nD,
      r.2.mem ((c : Thread nD τ).loc main_v21) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Blocks

end
-- ==== Proof.IndexRange.lean ====
/-
  A NODE INDEX NORMALISED THE WAY ARRAY INDEXING DOES IT.

  Indexing an axis of extent 100000 by a signed word `x` first adds the extent to a negative `x`. For
  `-100000 ≤ x < 100000` the normalised index lies in `[0, 99999]`: a non-negative `x` is kept, and a negative one
  moves to `x + 100000`, an addition that does not wrap.
-/
import Idealize.ShloMosaic.Lib.Affine
import Idealize.ShloMosaic.Lib.ValueIdx

namespace Cert.EdgeMlp

open Idealize.ShloMosaic

/-- The normalised index, as the two programs compute it word by word. -/
def wrap (x : BitVec 32) : BitVec 32 := Scalar.select (IntOp.cmpi .slt x 0#32) (IntOp.addi x 100000#32) x

/-- In range before, in `[0, 99999]` after. -/
theorem wrap_range (x : BitVec 32) (h1 : (-100000 : Int) ≤ x.toInt) (h2 : x.toInt < 100000) :
    (0 : Int) ≤ (wrap x).toInt ∧ (wrap x).toInt ≤ 99999 := by
  have z0 : (0#32 : BitVec 32).toInt = 0 := by decide
  unfold wrap
  by_cases h : x.toInt < 0
  · have hc : IntOp.cmpi .slt x 0#32 = 1#1 := IntOp.cmpi_slt.2 (by rw [z0]; exact h)
    rw [hc, ValueIdx.select_one]
    have hk : (100000#32 : BitVec 32).toInt = 100000 := by decide
    have ha : (IntOp.addi x 100000#32).toInt = x.toInt + 100000 := by
      rw [IntOp.addi, BitVec.toInt_add, hk]
      exact Int.bmod_eq_of_le (by omega) (by omega)
    omega
  · have hc : IntOp.cmpi .slt x 0#32 = 0#1 :=
      ValueIdx.eq_zero_of_ne_one fun hh => h (by have := IntOp.cmpi_slt.1 hh; rw [z0] at this; exact this)
    rw [hc, ValueIdx.select_zero]
    omega

/-- So both of the bounds test the lookup makes on the normalised index come out true. -/
theorem wrap_tests (x : BitVec 32) (h1 : (-100000 : Int) ≤ x.toInt) (h2 : x.toInt < 100000) :
    IntOp.andi (IntOp.cmpi .sge (wrap x) 0#32) (IntOp.cmpi .sle (wrap x) 99999#32) = 1#1 := by
  obtain ⟨a, b⟩ := wrap_range x h1 h2
  have z0 : (0#32 : BitVec 32).toInt = 0 := by decide
  have z1 : (99999#32 : BitVec 32).toInt = 99999 := by decide
  exact IntOp.andi_eq_one.2 ⟨IntOp.cmpi_sge.2 (by rw [z0]; exact a), IntOp.cmpi_sle.2 (by rw [z1]; exact b)⟩

end Cert.EdgeMlp
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.KernelHost.lean ====
/-
  THE KERNEL'S OPERANDS AS THE HOST CODE BEFORE IT MAKES THEM.

  Before the kernel runs, the host code
  * splits the `[2, 500000]` edge list into its source row and its target row, normalises each node index the way
    array indexing does (a negative index has the extent 100000 added), and looks the rows of the embedding table up
    with a FILLING lookup: a gather at the normalised index clamped into the table, replaced by a fill value on every
    edge whose normalised index is outside `[0, 99999]`;
  * transposes each weight matrix into (input, output) layout, cutting the first layer's in two along its inputs,
    and reads each bias vector as a one-row matrix.
  For node indices in `[-100000, 100000)` the normalised index is in `[0, 99999]` (`EdgeMlp.wrap_tests`), the fill is
  never taken, and the lookup is the plain gather. Every other operand is read at an index from the argument it is
  made of.
-/
import proofs.«410534_j22703197127228_1_alg».proof.Proof.KernelValue
import proofs.«410534_j22703197127228_1_alg».proof.Proof.IndexRange
import proofs.«410534_j22703197127228_1_alg».proof.Proof.LibTRefCast
import proofs.«410534_j22703197127228_1_alg».proof.Proof.LibReduceAnd
import Idealize.ShloMosaic.Lib.StableHlo.Run
import Idealize.ShloMosaic.Lib.StableHlo.Predicate
import Idealize.ShloMosaic.Lib.ValueLayout

noncomputable section

namespace Cert.KernelIdeal.Host

open Cert.KernelIdeal Cert.KernelIdeal.Gen Idealize.ShloMosaic Idealize.ShloMosaic.TcCoe Idealize.ShloMosaic.StableHlo
open Idealize.ShloMosaic.ValueIdx Cert.KernelIdeal.Blocks Cert.EdgeMlp

/-! ## The node indices and the filling lookup -/

/-- The edges' source nodes: row 0 of the edge list. -/
def srcWords (ei : IVec S2x500000 32) : IVec S500000 32 :=
  shapeCast S500000 (extractStridedSlice S1x500000 ![0, 0] ei slices_S2x500000_S1x500000_0_0) shapeCasts_S1x500000_S500000

/-- The edges' target nodes: row 1 of the edge list. -/
def dstWords (ei : IVec S2x500000 32) : IVec S500000 32 :=
  shapeCast S500000 (extractStridedSlice S1x500000 ![1, 0] ei slices_S2x500000_S1x500000_1_0) shapeCasts_S1x500000_S500000

theorem srcWords_apply (ei : IVec S2x500000 32) (e : Fin 500000) : srcWords ei (ix1 e) = ei (ix2 (0 : Fin 2) e) := by
  unfold srcWords
  rw [shapeCast_1a_a_apply]
  exact slice2_axis0_apply 0 ei slices_S2x500000_S1x500000_0_0 (0 : Fin 1) e (0 : Fin 2) rfl

theorem dstWords_apply (ei : IVec S2x500000 32) (e : Fin 500000) : dstWords ei (ix1 e) = ei (ix2 (1 : Fin 2) e) := by
  unfold dstWords
  rw [shapeCast_1a_a_apply]
  exact slice2_axis0_apply 1 ei slices_S2x500000_S1x500000_1_0 (0 : Fin 1) e (1 : Fin 2) rfl

/-- The normalised node indices as the one-column array the gather takes. -/
def nodeCol (r : IVec S500000 32) : IVec S500000x1 32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 100000#32))) r)

/-- Edge `e`'s entry of the column is its node index normalised. -/
theorem nodeCol_apply (r : IVec S500000 32) (e : Fin 500000) (u : Fin 1) : nodeCol r (ix2 e u) = wrap (r (ix1 e)) := by
  unfold nodeCol
  refine (broadcastInDim_apply ![0] bcast_S500000_S500000x1_0 _ (ix2 e u) (ix1 e) (fun a => match a with
    | ⟨0, _⟩ => by show e.val = if (500000 : Nat) = 1 then 0 else e.val; rw [if_neg (by decide)])).trans ?_
  show Scalar.select (IntOp.cmpi .slt (r (ix1 e)) (broadcastInDim S500000 ![] bcast_S_S500000 (constantI S_ 32 0#32) (ix1 e)))
      (IntOp.addi (r (ix1 e)) (broadcastInDim S500000 ![] bcast_S_S500000 (constantI S_ 32 100000#32) (ix1 e))) (r (ix1 e)) = _
  rw [Predicate.bcast_scalar bcast_S_S500000 h_S_, Predicate.bcast_scalar bcast_S_S500000 h_S_]
  rfl

/-- THE FILLING LOOKUP of the table's rows at the node indices `r`. -/
def lookup (z : FVec Ideal S100000x256 .f32) (r : IVec S500000 32) : FVec Ideal S500000x256 .f32 :=
  select
    (broadcastInDim S500000x256 ![0] bcast_S500000_S500000x256_0
      (Host.reduce IntOp.andi
        (andi (cmpi .sge (nodeCol r) (broadcastInDim S500000x1 ![] bcast_S_S500000x1 (constantI S_ 32 0#32)))
          (cmpi .sle (nodeCol r) (broadcastInDim S500000x1 ![0, 1] bcast_S1x1_S500000x1_0_1
            (broadcastInDim S1x1 ![1] bcast_S1_S1x1_1 (constantI S1 32 99999#32)))))
        (constantI S_ 1 1#1) reducesTo_S500000x1_S500000_d1 h_S_))
    (Host.gather gather_S100000x256_S500000x1_S500000x256_1_0_n_n_0_1_1256 z (nodeCol r))
    (broadcastInDim S500000x256 ![] bcast_S_S500000x256 (constant S_ .f32 0x7FC00000#32))

/-- With every node index in `[-100000, 100000)` no edge is filled: the lookup is the gather. -/
theorem lookup_eq_gather (z : FVec Ideal S100000x256 .f32) (r : IVec S500000 32)
    (hr : ∀ e : Fin 500000, (-100000 : Int) ≤ (r (ix1 e)).toInt ∧ (r (ix1 e)).toInt < 100000) :
    lookup z r = Host.gather gather_S100000x256_S500000x1_S500000x256_1_0_n_n_0_1_1256 z (nodeCol r) := by
  funext i
  obtain ⟨e, q, rfl⟩ : ∃ (e : Fin 500000) (q : Fin 256), i = ix2 e q := ⟨i 0, i 1, eq_ix2 i⟩
  unfold lookup
  rw [select_apply]
  have hmask : broadcastInDim S500000x256 ![0] bcast_S500000_S500000x256_0
      (Host.reduce IntOp.andi
        (andi (cmpi .sge (nodeCol r) (broadcastInDim S500000x1 ![] bcast_S_S500000x1 (constantI S_ 32 0#32)))
          (cmpi .sle (nodeCol r) (broadcastInDim S500000x1 ![0, 1] bcast_S1x1_S500000x1_0_1
            (broadcastInDim S1x1 ![1] bcast_S1_S1x1_1 (constantI S1 32 99999#32)))))
        (constantI S_ 1 1#1) reducesTo_S500000x1_S500000_d1 h_S_) (ix2 e q) = 1#1 := by
    refine (broadcastInDim_apply ![0] bcast_S500000_S500000x256_0 _ (ix2 e q) (ix1 e) (fun a => match a with
      | ⟨0, _⟩ => by show e.val = if (500000 : Nat) = 1 then 0 else e.val; rw [if_neg (by decide)])).trans ?_
    refine Host.reduce_andi_of_all _ _ reducesTo_S500000x1_S500000_d1 h_S_ (ix1 e) rfl (fun i' _ => ?_)
    obtain ⟨e', u, rfl⟩ : ∃ (e' : Fin 500000) (u : Fin 1), i' = ix2 e' u := ⟨i' 0, i' 1, eq_ix2 i'⟩
    show IntOp.andi (IntOp.cmpi .sge (nodeCol r (ix2 e' u)) (broadcastInDim S500000x1 ![] bcast_S_S500000x1 (constantI S_ 32 0#32) (ix2 e' u)))
        (IntOp.cmpi .sle (nodeCol r (ix2 e' u)) (broadcastInDim S500000x1 ![0, 1] bcast_S1x1_S500000x1_0_1
          (broadcastInDim S1x1 ![1] bcast_S1_S1x1_1 (constantI S1 32 99999#32)) (ix2 e' u))) = 1#1
    rw [Predicate.bcast_scalar bcast_S_S500000x1 h_S_, nodeCol_apply,
      broadcastInDim_apply ![0, 1] bcast_S1x1_S500000x1_0_1 _ (ix2 e' u) (ix2 (0 : Fin 1) (0 : Fin 1)) (fun a => match a with
        | ⟨0, _⟩ => by show 0 = if (1 : Nat) = 1 then 0 else e'.val; rw [if_pos rfl]
        | ⟨1, _⟩ => by show 0 = if (1 : Nat) = 1 then 0 else u.val; rw [if_pos rfl])]
    exact wrap_tests _ (hr e').1 (hr e').2
  rw [hmask, select_one]

variable (m : (ℓ : Loc nD τ sig) → Buf (Elt Ideal) ℓ)

/-! ## The arguments, at their literal types -/

abbrev arg0 (c : Dev nD) : FVec Ideal S100000x256 .f32 := m ((c : Thread nD τ).loc main_arg0)
abbrev arg1 (c : Dev nD) : IVec S2x500000 32 := m ((c : Thread nD τ).loc main_arg1)
abbrev arg2 (c : Dev nD) : FVec Ideal S512x512 .f32 := m ((c : Thread nD τ).loc main_arg2)
abbrev arg3 (c : Dev nD) : FVec Ideal S512 .f32 := m ((c : Thread nD τ).loc main_arg3)
abbrev arg4 (c : Dev nD) : FVec Ideal S256x512 .f32 := m ((c : Thread nD τ).loc main_arg4)
abbrev arg5 (c : Dev nD) : FVec Ideal S256 .f32 := m ((c : Thread nD τ).loc main_arg5)
abbrev arg6 (c : Dev nD) : FVec Ideal S256x256 .f32 := m ((c : Thread nD τ).loc main_arg6)
abbrev arg7 (c : Dev nD) : FVec Ideal S256 .f32 := m ((c : Thread nD τ).loc main_arg7)
abbrev arg8 (c : Dev nD) : FVec Ideal S1x256 .f32 := m ((c : Thread nD τ).loc main_arg8)
abbrev arg9 (c : Dev nD) : FVec Ideal S1 .f32 := m ((c : Thread nD τ).loc main_arg9)

/-! ## Each operand as the host code's term of the arguments -/

set_option maxHeartbeats 2000000 in
theorem op0_eq (c : Dev nD) : op0 m c = lookup (arg0 m c) (srcWords (arg1 m c)) := by
  show V m c main_v4 = _
  dsimp only [V]
  simp only [hostOps0, hostOps0_1, hostOps0_2, hostOps0_3, List.flatten_cons, List.flatten_nil, List.append_nil, List.cons_append,
    List.nil_append]
  after_results_simp
  simp only [TRef.ofBuf_toBuf]
  have e1 : ∀ (h1 : main_v1.ty = (⟨S500000, .i32⟩ : BufTy)) (h2 : main_v1.space ≠ .host) (h3 : main_v1.isScoped = false)
      (v : main_v1.ty.Contents (Elt Ideal)), (TRef.of (sig := sig) (T := ⟨S500000, .i32⟩) main_v1 h1 h2 h3).ofBuf v = v :=
    fun _ _ _ _ => cast_eq _ _
  have e0 : ∀ (h1 : main_arg0.ty = (⟨S100000x256, .f32⟩ : BufTy)) (h2 : main_arg0.space ≠ .host) (h3 : main_arg0.isScoped = false)
      (v : main_arg0.ty.Contents (Elt Ideal)), (TRef.of (sig := sig) (T := ⟨S100000x256, .f32⟩) main_arg0 h1 h2 h3).ofBuf v = v :=
    fun _ _ _ _ => cast_eq _ _
  simp only [e1, e0]
  refine (cast_eq _ _).trans ?_
  rfl

set_option maxHeartbeats 2000000 in
theorem op1_eq (c : Dev nD) : op1 m c = lookup (arg0 m c) (dstWords (arg1 m c)) := by
  show V m c main_v5 = _
  dsimp only [V]
  simp only [hostOps0, hostOps0_1, hostOps0_2, hostOps0_3, List.flatten_cons, List.flatten_nil, List.append_nil, List.cons_append,
    List.nil_append]
  after_results_simp
  simp only [TRef.ofBuf_toBuf]
  have e1 : ∀ (h1 : main_v3.ty = (⟨S500000, .i32⟩ : BufTy)) (h2 : main_v3.space ≠ .host) (h3 : main_v3.isScoped = false)
      (v : main_v3.ty.Contents (Elt Ideal)), (TRef.of (sig := sig) (T := ⟨S500000, .i32⟩) main_v3 h1 h2 h3).ofBuf v = v :=
    fun _ _ _ _ => cast_eq _ _
  have e0 : ∀ (h1 : main_arg0.ty = (⟨S100000x256, .f32⟩ : BufTy)) (h2 : main_arg0.space ≠ .host) (h3 : main_arg0.isScoped = false)
      (v : main_arg0.ty.Contents (Elt Ideal)), (TRef.of (sig := sig) (T := ⟨S100000x256, .f32⟩) main_arg0 h1 h2 h3).ofBuf v = v :=
    fun _ _ _ _ => cast_eq _ _
  simp only [e1, e0]
  refine (cast_eq _ _).trans ?_
  rfl

theorem op2_eq (c : Dev nD) : op2 m c = truncf .bf16 (extractStridedSlice S256x512 ![0, 0] (transpose S512x512 [1, 0] (arg2 m c) transposes_S512x512_S512x512_1_0) slices_S512x512_S256x512_0_0) bitsLt_bf16_f32 := by
  show V m c main_v8 = _
  dsimp only [V]
  simp only [hostOps0, hostOps0_1, hostOps0_2, hostOps0_3, List.flatten_cons, List.flatten_nil, List.append_nil, List.cons_append,
    List.nil_append]
  after_results
  try rfl

theorem op3_eq (c : Dev nD) : op3 m c = truncf .bf16 (extractStridedSlice S256x512 ![256, 0] (transpose S512x512 [1, 0] (arg2 m c) transposes_S512x512_S512x512_1_0) slices_S512x512_S256x512_256_0) bitsLt_bf16_f32 := by
  show V m c main_v10 = _
  dsimp only [V]
  simp only [hostOps0, hostOps0_1, hostOps0_2, hostOps0_3, List.flatten_cons, List.flatten_nil, List.append_nil, List.cons_append,
    List.nil_append]
  after_results
  try rfl

theorem op4_eq (c : Dev nD) : op4 m c = shapeCast S1x512 (arg3 m c) shapeCasts_S512_S1x512 := by
  show V m c main_v17 = _
  dsimp only [V]
  simp only [hostOps0, hostOps0_1, hostOps0_2, hostOps0_3, List.flatten_cons, List.flatten_nil, List.append_nil, List.cons_append,
    List.nil_append]
  after_results
  try rfl

theorem op5_eq (c : Dev nD) : op5 m c = truncf .bf16 (transpose S512x256 [1, 0] (arg4 m c) transposes_S256x512_S512x256_1_0) bitsLt_bf16_f32 := by
  show V m c main_v12 = _
  dsimp only [V]
  simp only [hostOps0, hostOps0_1, hostOps0_2, hostOps0_3, List.flatten_cons, List.flatten_nil, List.append_nil, List.cons_append,
    List.nil_append]
  after_results
  try rfl

theorem op6_eq (c : Dev nD) : op6 m c = shapeCast S1x256 (arg5 m c) shapeCasts_S256_S1x256 := by
  show V m c main_v18 = _
  dsimp only [V]
  simp only [hostOps0, hostOps0_1, hostOps0_2, hostOps0_3, List.flatten_cons, List.flatten_nil, List.append_nil, List.cons_append,
    List.nil_append]
  after_results
  try rfl

theorem op7_eq (c : Dev nD) : op7 m c = truncf .bf16 (transpose S256x256 [1, 0] (arg6 m c) transposes_S256x256_S256x256_1_0) bitsLt_bf16_f32 := by
  show V m c main_v14 = _
  dsimp only [V]
  simp only [hostOps0, hostOps0_1, hostOps0_2, hostOps0_3, List.flatten_cons, List.flatten_nil, List.append_nil, List.cons_append,
    List.nil_append]
  after_results
  try rfl

theorem op8_eq (c : Dev nD) : op8 m c = shapeCast S1x256 (arg7 m c) shapeCasts_S256_S1x256 := by
  show V m c main_v19 = _
  dsimp only [V]
  simp only [hostOps0, hostOps0_1, hostOps0_2, hostOps0_3, List.flatten_cons, List.flatten_nil, List.append_nil, List.cons_append,
    List.nil_append]
  after_results
  try rfl

theorem op9_eq (c : Dev nD) : op9 m c = truncf .bf16 (transpose S256x1 [1, 0] (arg8 m c) transposes_S1x256_S256x1_1_0) bitsLt_bf16_f32 := by
  show V m c main_v16 = _
  dsimp only [V]
  simp only [hostOps0, hostOps0_1, hostOps0_2, hostOps0_3, List.flatten_cons, List.flatten_nil, List.append_nil, List.cons_append,
    List.nil_append]
  after_results
  try rfl

theorem op10_eq (c : Dev nD) : op10 m c = shapeCast S1x1 (arg9 m c) shapeCasts_S1_S1x1 := by
  show V m c main_v20 = _
  dsimp only [V]
  simp only [hostOps0, hostOps0_1, hostOps0_2, hostOps0_3, List.flatten_cons, List.flatten_nil, List.append_nil, List.cons_append,
    List.nil_append]
  after_results
  try rfl

/-! ## The weights and biases read at an index -/

/-- First half of the first layer's weights: input `k`, output `j` is `W₁[j, k]`. -/
theorem op2_apply (c : Dev nD) (k : Fin 256) (j : Fin 512) :
    op2 m c (ix2 k j) = arg2 m c (ix2 j (Fin.castAdd 256 k : Fin 512)) := by
  rw [op2_eq]
  show extractStridedSlice S256x512 ![0, 0] (transpose S512x512 [1, 0] (arg2 m c) transposes_S512x512_S512x512_1_0) slices_S512x512_S256x512_0_0 (ix2 k j) = _
  rw [slice2_axis0_apply 0 _ slices_S512x512_S256x512_0_0 k j (Fin.castAdd 256 k : Fin 512) (Nat.zero_add _).symm]
  exact transpose_ix2_apply _ transposes_S512x512_S512x512_1_0 _ _

/-- Second half: input `k`, output `j` is `W₁[j, 256 + k]`. -/
theorem op3_apply (c : Dev nD) (k : Fin 256) (j : Fin 512) :
    op3 m c (ix2 k j) = arg2 m c (ix2 j (Fin.natAdd 256 k : Fin 512)) := by
  rw [op3_eq]
  show extractStridedSlice S256x512 ![256, 0] (transpose S512x512 [1, 0] (arg2 m c) transposes_S512x512_S512x512_1_0) slices_S512x512_S256x512_256_0 (ix2 k j) = _
  rw [slice2_axis0_apply 256 _ slices_S512x512_S256x512_256_0 k j (Fin.natAdd 256 k : Fin 512) rfl]
  exact transpose_ix2_apply _ transposes_S512x512_S512x512_1_0 _ _

theorem op4_apply (c : Dev nD) (j : Fin 512) : op4 m c (ix2 (0 : Fin 1) j) = arg3 m c (ix1 j) := by
  rw [op4_eq]; exact shapeCast_a_1a_apply _ _ _ _

theorem op5_apply (c : Dev nD) (k : Fin 512) (j : Fin 256) : op5 m c (ix2 k j) = arg4 m c (ix2 j k) := by
  rw [op5_eq]; exact transpose_ix2_apply _ transposes_S256x512_S512x256_1_0 _ _

theorem op6_apply (c : Dev nD) (j : Fin 256) : op6 m c (ix2 (0 : Fin 1) j) = arg5 m c (ix1 j) := by
  rw [op6_eq]; exact shapeCast_a_1a_apply _ _ _ _

theorem op7_apply (c : Dev nD) (k : Fin 256) (j : Fin 256) : op7 m c (ix2 k j) = arg6 m c (ix2 j k) := by
  rw [op7_eq]; exact transpose_ix2_apply _ transposes_S256x256_S256x256_1_0 _ _

theorem op8_apply (c : Dev nD) (j : Fin 256) : op8 m c (ix2 (0 : Fin 1) j) = arg7 m c (ix1 j) := by
  rw [op8_eq]; exact shapeCast_a_1a_apply _ _ _ _

theorem op9_apply (c : Dev nD) (k : Fin 256) : op9 m c (ix2 k (0 : Fin 1)) = arg8 m c (ix2 (0 : Fin 1) k) := by
  rw [op9_eq]; exact transpose_ix2_apply _ transposes_S1x256_S256x1_1_0 _ _

theorem op10_apply (c : Dev nD) : op10 m c (ix2 (0 : Fin 1) (0 : Fin 1)) = arg9 m c (ix1 (0 : Fin 1)) := by
  rw [op10_eq]; exact shapeCast_a_1a_apply _ _ _ _

/-! ## The kernel's result as the scores of the arguments -/

/-- With every node index of the edge list in `[-100000, 100000)`, the kernel's whole-array function of its operands is
    the scores of the gathered embeddings under the layers' parameters as passed. -/
theorem whole_eq (c : Dev nD)
    (hr : ∀ i : S2x500000.Idx, (-100000 : Int) ≤ (arg1 m c i).toInt ∧ (arg1 m c i).toInt < 100000) :
    whole m c = scores
      (Host.gather gather_S100000x256_S500000x1_S500000x256_1_0_n_n_0_1_1256 (arg0 m c) (nodeCol (srcWords (arg1 m c))))
      (Host.gather gather_S100000x256_S500000x1_S500000x256_1_0_n_n_0_1_1256 (arg0 m c) (nodeCol (dstWords (arg1 m c))))
      (arg2 m c) (arg3 m c) (arg4 m c) (arg5 m c) (arg6 m c) (arg7 m c) (arg8 m c) (arg9 m c) := by
  have h0 := lookup_eq_gather (arg0 m c) (srcWords (arg1 m c)) fun e => by rw [srcWords_apply]; exact hr _
  have h1 := lookup_eq_gather (arg0 m c) (dstWords (arg1 m c)) fun e => by rw [dstWords_apply]; exact hr _
  funext i
  obtain ⟨e, u, rfl⟩ : ∃ (e : Fin 500000) (u : Fin 1), i = ix2 e u := ⟨i 0, i 1, eq_ix2 i⟩
  show scoresT (op0 m c) (op1 m c) (op2 m c) (op3 m c) (op4 m c) (op5 m c) (op6 m c) (op7 m c) (op8 m c) (op9 m c) (op10 m c) (ix2 e u) = _
  rw [scoresT_apply, scores_apply, op0_eq, op1_eq, h0, h1]
  have e2 : (fun (k : Fin 256) (j : Fin 512) => op2 m c (ix2 k j)) = fun k j => arg2 m c (ix2 j (Fin.castAdd 256 k : Fin 512)) :=
    funext fun k => funext fun j => op2_apply m c k j
  have e3 : (fun (k : Fin 256) (j : Fin 512) => op3 m c (ix2 k j)) = fun k j => arg2 m c (ix2 j (Fin.natAdd 256 k : Fin 512)) :=
    funext fun k => funext fun j => op3_apply m c k j
  have e4 : (fun j : Fin 512 => op4 m c (ix2 (0 : Fin 1) j)) = fun j => arg3 m c (ix1 j) := funext fun j => op4_apply m c j
  have e5 : (fun (k : Fin 512) (j : Fin 256) => op5 m c (ix2 k j)) = fun k j => arg4 m c (ix2 j k) :=
    funext fun k => funext fun j => op5_apply m c k j
  have e6 : (fun j : Fin 256 => op6 m c (ix2 (0 : Fin 1) j)) = fun j => arg5 m c (ix1 j) := funext fun j => op6_apply m c j
  have e7 : (fun (k : Fin 256) (j : Fin 256) => op7 m c (ix2 k j)) = fun k j => arg6 m c (ix2 j k) :=
    funext fun k => funext fun j => op7_apply m c k j
  have e8 : (fun j : Fin 256 => op8 m c (ix2 (0 : Fin 1) j)) = fun j => arg7 m c (ix1 j) := funext fun j => op8_apply m c j
  have e9 : (fun k : Fin 256 => op9 m c (ix2 k (0 : Fin 1))) = fun k => arg8 m c (ix2 (0 : Fin 1) k) := funext fun k => op9_apply m c k
  rw [e2, e3, e4, e5, e6, e7, e8, e9, op10_apply]

end Cert.KernelIdeal.Host

end
-- ==== Proof.RefValue.lean ====
/-
  THE REFERENCE'S RESULT IS THE SCORES.

  The reference gathers the two endpoint embeddings of every edge, stacks them side by side into a `[500000, 512]`
  array, and applies the four layers with each weight matrix transposed on the fly: layer by layer its value at an
  index is the spec's. In the first layer the product against the stacked row is a sum over 512 columns; split into
  its two halves (`EdgeMlp.sum_split`) the first half reads the source's embedding and the second the target's,
  which is the form the spec's first layer has. The last four operations, `1 / (1 + exp (-x))`, spell the logistic
  function.
-/
import proofs.«410534_j22703197127228_1_alg».proof.Proof.Gen.ReferenceIdeal.Read
import proofs.«410534_j22703197127228_1_alg».proof.Proof.Spec
import Idealize.ShloMosaic.Lib.IdealHost
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeMlp

variable (x0 : FVec Ideal S100000x256 .f32) (x1 : IVec S2x500000 32) (x2 : FVec Ideal S512x512 .f32) (x3 : FVec Ideal S512 .f32)
  (x4 : FVec Ideal S256x512 .f32) (x5 : FVec Ideal S256 .f32) (x6 : FVec Ideal S256x256 .f32) (x7 : FVec Ideal S256 .f32)
  (x8 : FVec Ideal S1x256 .f32) (x9 : FVec Ideal S1 .f32)

/-- Two indices of a matrix with the same coordinates are equal. -/
theorem idx2_ext {n0 n1 : Nat} (f g : (⟨2, ![n0, n1]⟩ : Shape).Idx) (h0 : (f 0).val = (g 0).val) (h1 : (f 1).val = (g 1).val) :
    f = g :=
  funext fun a => Fin.ext (by
    match a with
    | ⟨0, _⟩ => exact h0
    | ⟨1, _⟩ => exact h1)

/-- The stacked row's first 256 columns are the source's embedding. -/
theorem cat_left (e : Fin 500000) (k : Fin 256) :
    val_main_v18 (F := Ideal) x0 x1 (ix2 e (Fin.castAdd 256 k : Fin 512)) = val_main_v10 (F := Ideal) x0 x1 (ix2 e k) := by
  unfold val_main_v18
  exact concatenate_pair_apply_left (t := S500000x512) (s₁ := S500000x256) (s₂ := S500000x256) (1 : Fin 2) _ _
    concatenates_S500000x256_S500000x256_S500000x512_d1 (ix2 e (Fin.castAdd 256 k : Fin 512)) rfl (ix2 e k)
    (fun b => match b with
      | ⟨0, _⟩ => rfl
      | ⟨1, _⟩ => rfl)

/-- Its last 256 columns are the target's embedding. -/
theorem cat_right (e : Fin 500000) (k : Fin 256) :
    val_main_v18 (F := Ideal) x0 x1 (ix2 e (Fin.natAdd 256 k : Fin 512)) = val_main_v17 (F := Ideal) x0 x1 (ix2 e k) := by
  unfold val_main_v18
  exact concatenate_pair_apply_right (t := S500000x512) (s₁ := S500000x256) (s₂ := S500000x256) (1 : Fin 2) _ _
    concatenates_S500000x256_S500000x256_S500000x512_d1 (ix2 e (Fin.natAdd 256 k : Fin 512)) rfl rfl (ix2 e k)
    (fun b hb => match b, hb with
      | ⟨0, _⟩, _ => rfl
      | ⟨1, _⟩, hb => absurd rfl hb)
    (by show k.val + 256 = 256 + k.val; omega)

/-- The first layer at edge `e`, output `j`. -/
theorem layer1_eq (e : Fin 500000) (j : Fin 512) :
    val_main_v24 (F := Ideal) x0 x1 x2 x3 (ix2 e j)
      = layer1 (fun k => val_main_v10 (F := Ideal) x0 x1 (ix2 e k)) (fun k => val_main_v17 (F := Ideal) x0 x1 (ix2 e k))
          (fun k j => x2 (ix2 j (Fin.castAdd 256 k : Fin 512))) (fun k j => x2 (ix2 j (Fin.natAdd 256 k : Fin 512)))
          (fun j => x3 (ix1 j)) j := by
  rw [val_main_v24_apply, val_main_v23_apply, val_main_v20_apply, val_main_v22_apply, val_main_v21_apply,
    val_main_call0_v0_apply, val_main_call0_cst_apply]
  unfold layer1
  rw [sum_split]
  have hl : ∀ k : Fin 512, lidx_main_v20 (ix2 e j) k = ix2 e k := fun k => idx2_ext _ _ rfl rfl
  have hr : ∀ k : Fin 512, idx_main_v19 (ridx_main_v20 (ix2 e j) k) = ix2 j k := fun k => idx2_ext _ _ rfl rfl
  have hb : idx_main_v21 (idx_main_v22 (ix2 e j)) = ix1 j := funext fun a => Fin.ext (by
    match a with
    | ⟨0, _⟩ => rfl)
  simp only [Ideal.maximumf_def, Ideal.addf_def, Ideal.ofBits_def, Ideal.ofBits_zero_f32, val_main_v19_apply, hl, hr, hb,
    cat_left, cat_right]

/-- The second layer at edge `e`, output `j`. -/
theorem layer2_eq (e : Fin 500000) (j : Fin 256) :
    val_main_v30 (F := Ideal) x0 x1 x2 x3 x4 x5 (ix2 e j)
      = layer (fun k => val_main_v24 (F := Ideal) x0 x1 x2 x3 (ix2 e k)) (fun k j => x4 (ix2 j k)) (fun j => x5 (ix1 j)) j := by
  rw [val_main_v30_apply, val_main_v29_apply, val_main_v26_apply, val_main_v28_apply, val_main_v27_apply,
    val_main_call1_v0_apply, val_main_call1_cst_apply]
  unfold layer
  have hl : ∀ k : Fin 512, lidx_main_v26 (ix2 e j) k = ix2 e k := fun k => idx2_ext _ _ rfl rfl
  have hr : ∀ k : Fin 512, idx_main_v25 (ridx_main_v26 (ix2 e j) k) = ix2 j k := fun k => idx2_ext _ _ rfl rfl
  have hb : idx_main_v27 (idx_main_v28 (ix2 e j)) = ix1 j := funext fun a => Fin.ext (by
    match a with
    | ⟨0, _⟩ => rfl)
  simp only [Ideal.maximumf_def, Ideal.addf_def, Ideal.ofBits_def, Ideal.ofBits_zero_f32, val_main_v25_apply, hl, hr, hb]

/-- The third layer at edge `e`, output `j`. -/
theorem layer3_eq (e : Fin 500000) (j : Fin 256) :
    val_main_v36 (F := Ideal) x0 x1 x2 x3 x4 x5 x6 x7 (ix2 e j)
      = layer (fun k => val_main_v30 (F := Ideal) x0 x1 x2 x3 x4 x5 (ix2 e k)) (fun k j => x6 (ix2 j k)) (fun j => x7 (ix1 j)) j := by
  rw [val_main_v36_apply, val_main_v35_apply, val_main_v32_apply, val_main_v34_apply, val_main_v33_apply,
    val_main_call2_v0_apply, val_main_call2_cst_apply]
  unfold layer
  have hl : ∀ k : Fin 256, lidx_main_v32 (ix2 e j) k = ix2 e k := fun k => idx2_ext _ _ rfl rfl
  have hr : ∀ k : Fin 256, idx_main_v31 (ridx_main_v32 (ix2 e j) k) = ix2 j k := fun k => idx2_ext _ _ rfl rfl
  have hb : idx_main_v33 (idx_main_v34 (ix2 e j)) = ix1 j := funext fun a => Fin.ext (by
    match a with
    | ⟨0, _⟩ => rfl)
  simp only [Ideal.maximumf_def, Ideal.addf_def, Ideal.ofBits_def, Ideal.ofBits_zero_f32, val_main_v31_apply, hl, hr, hb]

/-- The output unit at edge `e`. -/
theorem out_eq (e : Fin 500000) (u : Fin 1) :
    val_main_v47 (F := Ideal) x0 x1 x2 x3 x4 x5 x6 x7 x8 x9 (ix2 e u)
      = Ideal.logistic ((∑ k : Fin 256, val_main_v36 (F := Ideal) x0 x1 x2 x3 x4 x5 x6 x7 (ix2 e k) * x8 (ix2 (0 : Fin 1) k))
          + x9 (ix1 (0 : Fin 1))) := by
  rw [val_main_v47_apply, val_main_v46_apply, val_main_cst_3_apply, val_main_v45_apply, val_main_v44_apply, val_main_cst_apply,
    val_main_v43_apply, val_main_v42_apply, val_main_v41_apply, val_main_v38_apply, val_main_v40_apply, val_main_v39_apply]
  have hl : ∀ k : Fin 256, lidx_main_v38 (ix2 e u) k = ix2 e k := fun k => idx2_ext _ _ rfl rfl
  have hr : ∀ k : Fin 256, idx_main_v37 (ridx_main_v38 (ix2 e u) k) = ix2 (0 : Fin 1) k := fun k =>
    idx2_ext _ _ (by show u.val = 0; omega) rfl
  have hb : idx_main_v39 (idx_main_v40 (ix2 e u)) = ix1 (0 : Fin 1) := funext fun a => Fin.ext (by
    match a with
    | ⟨0, _⟩ => rfl)
  simp only [val_main_v37_apply, hl, hr, hb, Ideal.hostDivf_def, Ideal.addf_def, Ideal.hostUnary_exp_def, Ideal.hostNegf_def,
    Ideal.negf_def, Ideal.ofBits_def, Ideal.ofBits_one_f32]
  rfl

/-- THE REFERENCE'S RESULT is the scores of its two gathers under the parameters as passed. -/
theorem result_eq :
    val_main_v47 (F := Ideal) x0 x1 x2 x3 x4 x5 x6 x7 x8 x9
      = scores (val_main_v10 (F := Ideal) x0 x1) (val_main_v17 (F := Ideal) x0 x1) x2 x3 x4 x5 x6 x7 x8 x9 := by
  funext i
  obtain ⟨e, u, rfl⟩ : ∃ (e : Fin 500000) (u : Fin 1), i = ix2 e u := ⟨i 0, i 1, eq_ix2 i⟩
  rw [out_eq, scores_apply]
  unfold mlp
  simp only [layer3_eq, layer2_eq, layer1_eq]

end Cert.ReferenceIdeal.RefValue

end
-- ==== Proof.PreDecode.lean ====
/-
  THE PRECONDITION'S LAST CONJUNCT, READ BACK.

  The precondition is a conjunction of "every entry of this array …" tests folded by `and`; its last conjunct says
  that every word `x` of the edge list satisfies `-100000 ≤ x` and `x < 100000`, read signed. If the whole
  conjunction is true, so is that conjunct, at every entry.
-/
import proofs.«410534_j22703197127228_1_alg».proof.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic

variable [Facts]
open Facts

instance : Subsingleton S_.Idx := ⟨fun a b => funext fun d => d.elim0⟩

/-- Every node index of an admitted edge list lies in `[-100000, 100000)`. -/
theorem nodes_in_range {F : FTy → Type} [FloatOps F] (a0 : FVec F S100000x256 .f32) (a1 : IVec S2x500000 32)
    (a2 : FVec F S512x512 .f32) (a3 : FVec F S512 .f32) (a4 : FVec F S256x512 .f32) (a5 : FVec F S256 .f32)
    (a6 : FVec F S256x256 .f32) (a7 : FVec F S256 .f32) (a8 : FVec F S1x256 .f32) (a9 : FVec F S1 .f32)
    (h : fn (F := F) a0 a1 a2 a3 a4 a5 a6 a7 a8 a9 = fun _ => 1#1) (i : S2x500000.Idx) :
    (-100000 : Int) ≤ (a1 i).toInt ∧ (a1 i).toInt < 100000 := by
  have h0 := congrFun h ValueIdx.ix0
  dsimp only [fn, fn_part1, fn_part2] at h0
  have h1 := (IntOp.andi_eq_one.1 h0).2
  have h2 := Host.reduce_andi_all _ _ _ _ _ h1 i
  obtain ⟨h3, h4⟩ := IntOp.andi_eq_one.1 h2
  have h3' := IntOp.cmpi_sge.1 h3
  have h4' := IntOp.cmpi_slt.1 h4
  rw [StableHlo.Predicate.bcast_scalar bcast_S_S2x500000 h_S_] at h3' h4'
  have z0 : (4294867296#32 : BitVec 32).toInt = -100000 := by decide
  have z1 : (100000#32 : BitVec 32).toInt = 100000 := by decide
  exact ⟨by rw [← z0]; exact h3', by rw [← z1]; exact h4'⟩

end Cert.Pre_finite_inputs.Decode

end
-- ==== Proof.lean ====
/- The proof of `Cert.Claim`: the edge scorer (two embedding lookups, three rectified dense layers and a logistic
   output unit) as a tiled kernel against its plain reference, over the extended reals.

   Both programs compute ONE function of the inputs, `EdgeMlp.scores` (Proof/Spec.lean): the kernel tile by tile
   (Proof/KernelBody.lean: the stored value at a row; Proof/KernelValue.lean: the 250 tiles cover the result), on
   operands the host code before it prepares (Proof/KernelHost.lean); the reference in one pass (Proof/RefValue.lean).
   The one difference between the two is the embedding lookup: the kernel's replaces the rows of out-of-range node
   indices by a fill value where the reference's clamps the index, so the two agree exactly when every node index
   is in range, `-100000 ≤ index < 100000` — the precondition's last conjunct (Proof/PreDecode.lean reads it back,
   Proof/IndexRange.lean does the word arithmetic). The first layer's product against the two embeddings side by
   side is, on the kernel's side, the sum of two products against the halves of the weight matrix: a sum split in
   two, which needs no finiteness. The three frames are the generated ones; no operation was idealized, so
   `preserves` is trivial. -/
import proofs.«410534_j22703197127228_1_alg».proof.Defs
import proofs.«410534_j22703197127228_1_alg».proof.Proof.Gen.Kernel
import proofs.«410534_j22703197127228_1_alg».proof.Proof.Gen.Kernel.Skeleton
import proofs.«410534_j22703197127228_1_alg».proof.Proof.Gen.Kernel.Launch
import proofs.«410534_j22703197127228_1_alg».proof.Proof.Gen.Kernel.Points
import proofs.«410534_j22703197127228_1_alg».proof.Proof.Gen.Kernel.Frame
import proofs.«410534_j22703197127228_1_alg».proof.Proof.Gen.KernelIdeal
import proofs.«410534_j22703197127228_1_alg».proof.Proof.Gen.KernelIdeal.Skeleton
import proofs.«410534_j22703197127228_1_alg».proof.Proof.Gen.KernelIdeal.Launch
import proofs.«410534_j22703197127228_1_alg».proof.Proof.Gen.KernelIdeal.Points
import proofs.«410534_j22703197127228_1_alg».proof.Proof.Gen.KernelIdeal.Frame
import proofs.«410534_j22703197127228_1_alg».proof.Proof.Gen.ReferenceIdeal
import proofs.«410534_j22703197127228_1_alg».proof.Proof.Gen.Pre_finite_inputs
import proofs.«410534_j22703197127228_1_alg».proof.Proof.Gen.KernelIdeal.Value
import proofs.«410534_j22703197127228_1_alg».proof.Proof.Gen.ReferenceIdeal.Run
import proofs.«410534_j22703197127228_1_alg».proof.Proof.Gen.ReferenceIdeal.Read
import proofs.«410534_j22703197127228_1_alg».proof.Proof.KernelHost
import proofs.«410534_j22703197127228_1_alg».proof.Proof.RefValue
import proofs.«410534_j22703197127228_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the scores of the gathered embeddings: the kernel's result array is the whole-array function
    of its operands, which under the precondition's index range is the scores; the reference's result term is the
    scores outright; and the two programs build the gathered embeddings by the same operations of the same arguments. -/
theorem algebraic : Cert.algebraic_KernelIdeal_ReferenceIdeal := by
  intro m ρ m' ρ' hpre hagree
  refine ⟨fun c => Cert.KernelIdeal.Blocks.whole m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  show _ = Cert.KernelIdeal.Blocks.whole m c
  rw [Cert.KernelIdeal.Host.whole_eq m c (fun i => Cert.Pre_finite_inputs.Decode.nodes_in_range _ _ _ _ _ _ _ _ _ _ (hpre c) i),
    a0, a1, a2, a3, a4, a5, a6, a7, a8, a9, Cert.ReferenceIdeal.Read.val_main_v47_eq, Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
